-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v50) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096 .f32) (main_arg5 : FVec F S4096 .f32) (main_arg6 : FVec F S4096 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096 .f32 := Host.absf main_arg4
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg5
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  main_v33

def fn {F : FTy → Type} [FloatOps F] (main_arg0 : FVec F S4096x4096 .f32) (main_arg1 : FVec F S4096x4096 .f32) (main_arg2 : FVec F S4096x4096 .f32) (main_arg3 : FVec F S4096x4096 .f32) (main_arg4 : FVec F S4096 .f32) (main_arg5 : FVec F S4096 .f32) (main_arg6 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_v13 main_v16
-- ==== Kernel.lean ====
abbrev S4096x4096 : Shape := ⟨2, ![4096, 4096]⟩
abbrev S4096 : Shape := ⟨1, ![4096]⟩
abbrev S64x4096 : Shape := ⟨2, ![64, 4096]⟩
abbrev S1x4096 : Shape := ⟨2, ![1, 4096]⟩

abbrev nBuf : Space → Nat
  | .hbm => 11
  | .vmem => 19
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S4096, .f32⟩
  | .local _ .vmem, ⟨9, _⟩ => ⟨S4096, .f32⟩
  | .local _ .vmem, ⟨10, _⟩ => ⟨S4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .vmem, ⟨18, _⟩ => ⟨S64x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S64x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  inb_S4096_S4096_0 : ∀ a, (![0] : Fin 1 → Nat) a + S4096.size a ≤ S4096.size a
  h_S4096 : 0 < S4096.numel
  shapeCasts_S4096_S1x4096 : S4096.ShapeCasts S1x4096
  inb_S64x4096_S64x4096_0_0 : ∀ a, (![0, 0] : Fin 2 → Nat) a + S64x4096.size a ≤ S64x4096.size a
  h_S64x4096 : 0 < S64x4096.numel
  broadcasts_S1x4096_S64x4096 : S1x4096.Broadcasts S64x4096
  natLt_1_32 : 1 < 32
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S4096x4096.size a
  hwx0_0 : ∀ i : grid0.Coords, EltTy.bits .f32 = 32 ∨ (Rect.block (s := S4096x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x4096.size a ≤ S4096x4096.size a
  hwx0_1 : ∀ i : grid0.Coords, EltTy.bits .f32 = 32 ∨ (Rect.block (s := S4096x4096) S64x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x4096.size a ≤ S4096x4096.size a
  hwx0_2 : ∀ i : grid0.Coords, EltTy.bits .f32 = 32 ∨ (Rect.block (s := S4096x4096) S64x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x4096.size a ≤ S4096x4096.size a
  hwx0_3 : ∀ i : grid0.Coords, EltTy.bits .f32 = 32 ∨ (Rect.block (s := S4096x4096) S64x4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S4096.size a ≤ S4096.size a
  hwx0_6 : ∀ i : grid0.Coords, EltTy.bits .f32 = 32 ∨ (Rect.block (s := S4096) S4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S64x4096.size a ≤ S4096x4096.size a
  hwx0_7 : ∀ i : grid0.Coords, EltTy.bits .f32 = 32 ∨ (Rect.block (s := S4096x4096) S64x4096.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S64x4096.size a ≤ S4096x4096.size a
  hwx0_8 : ∀ i : grid0.Coords, EltTy.bits .f32 = 32 ∨ (Rect.block (s := S4096x4096) S64x4096.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S64x4096.size a ≤ S4096x4096.size a
  hwx0_9 : ∀ i : grid0.Coords, EltTy.bits .f32 = 32 ∨ (Rect.block (s := S4096x4096) S64x4096.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S64x4096.size a ≤ S4096x4096.size a
  hwx0_10 : ∀ i : grid0.Coords, EltTy.bits .f32 = 32 ∨ (Rect.block (s := S4096x4096) S64x4096.size (cc0_transform_10 i) (hinb0_10 i)).WholeWords (EltTy.packing .f32)

variable [Facts₀]

abbrev win0_0 : Pipeline.Window sig grid0 :=
  Pipeline.Window.ofSpec (Memref.whole main_arg0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S64x4096.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S64x4096.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_2) S64x4096.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_3) S64x4096.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 69
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S1x4096, .f32⟩
  | .hbm, ⟨33, _⟩ => ⟨S4096x4096, .f32⟩
  | .hbm, ⟨34, _⟩ => ⟨S4096x4096, .f32⟩
  | .hbm, ⟨35, _⟩ => ⟨S_, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096x4096, .f32⟩
  | .hbm, ⟨41, _⟩ => ⟨S4096x4096, .f32⟩
  | .hbm, ⟨42, _⟩ => ⟨S4096x4096, .f32⟩
  | .hbm, ⟨43, _⟩ => ⟨S1x4096, .f32⟩
  | .hbm, ⟨44, _⟩ => ⟨S4096x4096, .f32⟩
  | .hbm, ⟨45, _⟩ => ⟨S4096x4096, .f32⟩
  | .hbm, ⟨46, _⟩ => ⟨S_, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S4096x4096, .f32⟩
  | .hbm, ⟨56, _⟩ => ⟨S4096, .f32⟩
  | .hbm, ⟨57, _⟩ => ⟨S1x4096, .f32⟩
  | .hbm, ⟨58, _⟩ => ⟨S4096x4096, .f32⟩
  | .hbm, ⟨59, _⟩ => ⟨S4096x4096, .f32⟩
  | .hbm, ⟨60, _⟩ => ⟨S4096x4096, .f32⟩
  | .hbm, ⟨61, _⟩ => ⟨S_, .f32⟩
  | .hbm, ⟨62, _⟩ => ⟨S4096x4096, .f32⟩
  | .hbm, ⟨63, _⟩ => ⟨S4096x4096, .i1⟩
  | .hbm, ⟨64, _⟩ => ⟨S4096x4096, .f32⟩
  | .hbm, ⟨65, _⟩ => ⟨S_, .f32⟩
  | .hbm, ⟨66, _⟩ => ⟨S4096x4096, .f32⟩
  | .hbm, ⟨67, _⟩ => ⟨S4096x4096, .f32⟩
  | .hbm, ⟨68, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_8 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S_S4096x4096 : S_.BroadcastsInDim S4096x4096 (![] : Fin 0 → Fin S4096x4096.rank)

variable [Facts₀]

class Facts : Prop extends Facts₀ where

variable [Facts]
-- ==== Proof.Spec.lean ====
/-
  One step of the resonate-and-fire neuron, per neuron, as functions on the extended reals.

  A neuron with angular frequency ω, damping offset b₀ and threshold θ carries a membrane state (u, v) and a
  refractory variable q.  With time step dt the step reads

      p(ω)   = (−1 + √(1 − (dt·|ω|)²)) / dt                 (the divergence boundary of the oscillator)
      b      = p(ω) − |b₀| − q
      u'     = u + b·u·dt − |ω|·v·dt + x·dt
      v'     = v + |ω|·u·dt + b·v·dt                        (the OLD u)
      z      = 1 if |u'| − |θ| − q > 0, else 0
      q'     = q·γ + z

  Every product, sum and difference is written in exactly this order and grouping: on the extended reals
  no law is used to compare two programs that both compute these expressions as written.  The constants are
  the single-precision words the programs carry, read at their exact binary values.
-/
import Idealize.ShloMosaic.PureOps.Ideal
import Idealize.ShloMosaic.Lib.ValueIdx

noncomputable section

namespace Cert.Resonator

open Idealize.ShloMosaic

/-- The time step: the single-precision word nearest 1/24000. -/
def dt : EReal := Ideal.ofBits .f32 0x382EC33E#32
/-- The refractory decay γ: the single-precision word nearest 9/10. -/
def decay : EReal := Ideal.ofBits .f32 0x3F666666#32
/-- The words of 1, −1 and 0. -/
def one : EReal := Ideal.ofBits .f32 0x3F800000#32
def negOne : EReal := Ideal.ofBits .f32 0xBF800000#32
def zero : EReal := Ideal.ofBits .f32 0x00000000#32

/-- The absolute value on the extended reals. -/
def mag (x : EReal) : EReal := max x (-x)

/-- p(ω): the damping at which the oscillator of frequency ω neither grows nor decays over one step. -/
def sustain (ω : EReal) : EReal :=
  Ideal.div (negOne + Ideal.sqrt (one - dt * mag ω * (dt * mag ω))) dt

/-- b = p(ω) − |b₀| − q. -/
def damping (ω b0 q : EReal) : EReal := sustain ω - mag b0 - q

/-- u' = u + b·u·dt − |ω|·v·dt + x·dt. -/
def uNext (x u v q ω b0 : EReal) : EReal :=
  u + damping ω b0 q * u * dt - mag ω * v * dt + x * dt

/-- v' = v + |ω|·u·dt + b·v·dt. -/
def vNext (u v q ω b0 : EReal) : EReal :=
  v + mag ω * u * dt + damping ω b0 q * v * dt

/-- The firing condition |u'| − |θ| − q > 0, as a bit. -/
def fires (x u v q ω b0 θ : EReal) : BitVec 1 :=
  Ideal.cmp .ogt (mag (uNext x u v q ω b0) - mag θ - q) zero

/-- z: the firing bit as the number 0 or 1. -/
def spike (x u v q ω b0 θ : EReal) : EReal := (((fires x u v q ω b0 θ).toNat : ℝ) : EReal)

/-- q' = q·γ + z. -/
def qNext (x u v q ω b0 θ : EReal) : EReal := q * decay + spike x u v q ω b0 θ

/-! ## The step over the whole population

x, u, v, q hold one value per (row, neuron); ω, b₀, θ one value per neuron, shared by every row. -/

open Idealize.ShloMosaic.ValueIdx in
/-- An array of one value per (row, neuron), and a vector of one value per neuron. -/
abbrev Grid := (⟨2, ![4096, 4096]⟩ : Shape).Idx → EReal
abbrev PerNeuron := (⟨1, ![4096]⟩ : Shape).Idx → EReal

open Idealize.ShloMosaic.ValueIdx in
def uNextAll (x u v q : Grid) (ω b0 : PerNeuron) : Grid :=
  fun i => uNext (x i) (u i) (v i) (q i) (ω (ix1 (i 1))) (b0 (ix1 (i 1)))

open Idealize.ShloMosaic.ValueIdx in
def vNextAll (u v q : Grid) (ω b0 : PerNeuron) : Grid :=
  fun i => vNext (u i) (v i) (q i) (ω (ix1 (i 1))) (b0 (ix1 (i 1)))

open Idealize.ShloMosaic.ValueIdx in
def spikeAll (x u v q : Grid) (ω b0 θ : PerNeuron) : Grid :=
  fun i => spike (x i) (u i) (v i) (q i) (ω (ix1 (i 1))) (b0 (ix1 (i 1))) (θ (ix1 (i 1)))

open Idealize.ShloMosaic.ValueIdx in
def qNextAll (x u v q : Grid) (ω b0 θ : PerNeuron) : Grid :=
  fun i => qNext (x i) (u i) (v i) (q i) (ω (ix1 (i 1))) (b0 (ix1 (i 1))) (θ (ix1 (i 1)))

/-- A bit widened to 32 bits and read as a signed integer is the bit read as a natural number. -/
theorem toInt_setWidth_bit (b : BitVec 1) : ((b.setWidth 32).toInt : ℝ) = ((b.toNat : ℕ) : ℝ) := by
  rcases BitVec.eq_zero_or_eq_one b with rfl | rfl <;> simp

end Cert.Resonator

end
-- ==== Proof.Block.lean ====
/-
  The kernel body's stored values, read one element at a time.

  At a block index (r, c) — row r of the 64 rows of the block, neuron c — each of the four stored values is the
  per-neuron step of Proof/Spec.lean applied to the block entries of x, u, v, q at (r, c) and to entry c of the three
  per-neuron vectors.  Nothing is rearranged: the body spreads the per-neuron vectors down the rows (a vector laid out
  as one row, the row repeated 64 times) and then computes element by element in the order Spec.lean writes.
-/
import proofs.«164706_j14121852470206_1_alg».proof.Proof.Spec
import proofs.«164706_j14121852470206_1_alg».proof.Proof.Gen.KernelIdeal.Frame
import Idealize.ShloMosaic.Lib.Pipeline.Value
import Idealize.ShloMosaic.Lib.ValueIdx

noncomputable section

namespace Cert.KernelIdeal.Step

open Cert.KernelIdeal Cert.KernelIdeal.Gen Idealize.ShloMosaic Idealize.ShloMosaic.TcCoe Idealize.ShloMosaic.ValueIdx Cert.Resonator

/-- A row spread down the 64 rows of a block reads, at (r, c), the row's entry c. -/
theorem spread_apply {α : Type} (w : S1x4096.Idx → α) (y : S64x4096.Idx) :
    broadcastTo S64x4096 w broadcasts_S1x4096_S64x4096 y = w (ix2 (0 : Fin 1) (y 1)) :=
  broadcastTo_apply w broadcasts_S1x4096_S64x4096 y (ix2 (0 : Fin 1) (y 1)) (fun a => match a with
    | ⟨0, _⟩ => by show 0 = (if (1 : Nat) = 1 then 0 else (y 0).val); rw [if_pos rfl]
    | ⟨1, _⟩ => by show (y 1).val = (if (4096 : Nat) = 1 then 0 else (y 1).val); rw [if_neg (by decide)])

/-- A per-neuron vector laid out as one row reads, at (0, c), its entry c. -/
theorem asRow_apply {α : Type} (w : S4096.Idx → α) (y : S64x4096.Idx) :
    shapeCast S1x4096 w shapeCasts_S4096_S1x4096 (ix2 (0 : Fin 1) (y 1)) = w (ix1 (y 1)) :=
  shapeCast_apply w shapeCasts_S4096_S1x4096 (ix2 (0 : Fin 1) (y 1)) (ix1 (y 1))
    (by rw [Shape.rowMajor_val_one, Shape.rowMajor_val_two]; show (y 1).val = 0 * 4096 + (y 1).val; omega)

/-- |ω| as a row: entry (0, c) is the magnitude of ω at neuron c. -/
theorem magRow_apply (ω : Vec Ideal S4096 .f32) (y : S64x4096.Idx) :
    k0_pay4 ω (ix2 (0 : Fin 1) (y 1)) = mag (ω (ix1 (y 1))) := by
  unfold k0_pay4
  exact (asRow_apply _ y).trans rfl

/-- |θ| as a row. -/
theorem thrRow_apply (θ : Vec Ideal S4096 .f32) (y : S64x4096.Idx) :
    k0_pay5 θ (ix2 (0 : Fin 1) (y 1)) = mag (θ (ix1 (y 1))) := by
  unfold k0_pay5
  exact (asRow_apply _ y).trans rfl

/-- The damping b at (r, c): p(ω c) − |b₀ c| − q (r, c). -/
theorem damping_apply (ω b0 : Vec Ideal S4096 .f32) (q : Vec Ideal S64x4096 .f32) (y : S64x4096.Idx) :
    k0_pay6 ω b0 q y = damping (ω (ix1 (y 1))) (b0 (ix1 (y 1))) (q y) := by
  unfold k0_pay6
  simp only [subf_apply, divf_apply, addf_apply, mulf_apply, broadcast_apply, spread_apply, Idealize.ShloMosaic.sqrt,
    magRow_apply, asRow_apply]
  rfl

/-- u' at (r, c). -/
theorem uNext_apply (ω b0 : Vec Ideal S4096 .f32) (x u v q : Vec Ideal S64x4096 .f32) (y : S64x4096.Idx) :
    k0_pay7 ω b0 x u v q y = uNext (x y) (u y) (v y) (q y) (ω (ix1 (y 1))) (b0 (ix1 (y 1))) := by
  unfold k0_pay7
  simp only [subf_apply, addf_apply, mulf_apply, broadcast_apply, spread_apply, magRow_apply, damping_apply]
  rfl

/-- |ω|·u at (r, c). -/
theorem drive_apply (ω : Vec Ideal S4096 .f32) (u : Vec Ideal S64x4096 .f32) (y : S64x4096.Idx) :
    k0_pay8 ω u y = mag (ω (ix1 (y 1))) * u y := by
  unfold k0_pay8
  simp only [mulf_apply, spread_apply, magRow_apply]

/-- v' at (r, c). -/
theorem vNext_apply (ω b0 : Vec Ideal S4096 .f32) (u v q : Vec Ideal S64x4096 .f32) (y : S64x4096.Idx) :
    k0_pay1 v (k0_pay6 ω b0 q) (k0_pay8 ω u) (Scalar.ofBits .f32 0x382EC33E#32) y
      = vNext (u y) (v y) (q y) (ω (ix1 (y 1))) (b0 (ix1 (y 1))) := by
  unfold k0_pay1
  simp only [addf_apply, mulf_apply, broadcast_apply, drive_apply, damping_apply]
  rfl

/-- z at (r, c): the firing bit, widened and converted, is the number 0 or 1. -/
theorem spike_apply (ω b0 θ : Vec Ideal S4096 .f32) (x u v q : Vec Ideal S64x4096 .f32) (y : S64x4096.Idx) :
    k0_pay2 (k0_pay5 θ) q (k0_pay7 ω b0 x u v q) y
      = spike (x y) (u y) (v y) (q y) (ω (ix1 (y 1))) (b0 (ix1 (y 1))) (θ (ix1 (y 1))) := by
  unfold k0_pay2
  simp only [sitofp_apply, extui_apply, cmpf_apply, subf_apply, broadcast_apply, spread_apply, thrRow_apply,
    Idealize.ShloMosaic.absf, uNext_apply]
  exact congrArg (fun r : ℝ => (r : EReal)) (toInt_setWidth_bit _)

/-- q' at (r, c). -/
theorem qNext_apply (ω b0 θ : Vec Ideal S4096 .f32) (x u v q : Vec Ideal S64x4096 .f32) (y : S64x4096.Idx) :
    k0_pay3 (k0_pay5 θ) q (k0_pay7 ω b0 x u v q) y
      = qNext (x y) (u y) (v y) (q y) (ω (ix1 (y 1))) (b0 (ix1 (y 1))) (θ (ix1 (y 1))) := by
  unfold k0_pay3
  simp only [addf_apply, mulf_apply, broadcast_apply, spike_apply]
  rfl

/-! ## What the body leaves in each output block -/

theorem origin2 : (![0, 0] : Fin 2 → Nat) = fun _ => 0 := funext fun a => by fin_cases a <;> rfl
theorem origin1 : (![0] : Fin 1 → Nat) = fun _ => 0 := funext fun a => by fin_cases a <;> rfl

/-- The block of z. -/
theorem zBlock (x u v q : Vec Ideal S64x4096 .f32) (ω b0 θ : Vec Ideal S4096 .f32) (y : S64x4096.Idx) :
    out0_7 x u v q ω b0 θ y = spike (x y) (u y) (v y) (q y) (ω (ix1 (y 1))) (b0 (ix1 (y 1))) (θ (ix1 (y 1))) := by
  unfold out0_7
  rw [View.canon_unit_zero origin2]
  simp only [View.ld_unit_zero (S := S64x4096) origin2, View.ld_unit_zero (S := S4096) origin1]
  exact spike_apply ω b0 θ x u v q y

/-- The block of u'. -/
theorem uBlock (x u v q : Vec Ideal S64x4096 .f32) (ω b0 θ : Vec Ideal S4096 .f32) (y : S64x4096.Idx) :
    out0_8 x u v q ω b0 θ y = uNext (x y) (u y) (v y) (q y) (ω (ix1 (y 1))) (b0 (ix1 (y 1))) := by
  unfold out0_8
  rw [View.canon_unit_zero origin2]
  simp only [View.ld_unit_zero (S := S64x4096) origin2, View.ld_unit_zero (S := S4096) origin1]
  exact uNext_apply ω b0 x u v q y

/-- The block of v'. -/
theorem vBlock (x u v q : Vec Ideal S64x4096 .f32) (ω b0 θ : Vec Ideal S4096 .f32) (y : S64x4096.Idx) :
    out0_9 x u v q ω b0 θ y = vNext (u y) (v y) (q y) (ω (ix1 (y 1))) (b0 (ix1 (y 1))) := by
  unfold out0_9
  rw [View.canon_unit_zero origin2]
  simp only [View.ld_unit_zero (S := S64x4096) origin2, View.ld_unit_zero (S := S4096) origin1]
  exact vNext_apply ω b0 u v q y

/-- The block of q'. -/
theorem qBlock (x u v q : Vec Ideal S64x4096 .f32) (ω b0 θ : Vec Ideal S4096 .f32) (y : S64x4096.Idx) :
    out0_10 x u v q ω b0 θ y = qNext (x y) (u y) (v y) (q y) (ω (ix1 (y 1))) (b0 (ix1 (y 1))) (θ (ix1 (y 1))) := by
  unfold out0_10
  rw [View.canon_unit_zero origin2]
  simp only [View.ld_unit_zero (S := S64x4096) origin2, View.ld_unit_zero (S := S4096) origin1]
  exact qNext_apply ω b0 θ x u v q y

end Cert.KernelIdeal.Step

end
-- ==== Proof.KernelStep.lean ====
/-
  The idealized kernel's four result arrays, whole.

  The grid has 64 points; point t stages rows 64·t … 64·t + 63 of x, u, v, q (all 4096 neurons of each row) and the
  three per-neuron vectors whole, and writes back the same 64 rows of each result.  So entry (r, c) of a block at point
  t is entry (64·t + r, c) of its array, the 64 blocks tile each result, and every result array ends holding the
  per-neuron step of Proof/Spec.lean at every (row, neuron).
-/
import proofs.«164706_j14121852470206_1_alg».proof.Proof.Block
import proofs.«164706_j14121852470206_1_alg».proof.Proof.ValueBlocks
import Idealize.ShloMosaic.Lib.Pipeline.Value
import Idealize.ShloMosaic.Lib.ValueIdx

noncomputable section

namespace Cert.KernelIdeal.Step

open Cert.KernelIdeal Cert.KernelIdeal.Gen Idealize.ShloMosaic Idealize.ShloMosaic.TcCoe Idealize.SL.Sem
open Idealize.ShloMosaic.ValueIdx Cert.Resonator
open Idealize.ShloMosaic.Pipeline (Dat)

variable (m : (ℓ : Loc nD τ sig) → Buf (Elt Ideal) ℓ) (ρ : Dev nD → PrngReg)

/-! ## Where a block sits in its array -/

/-- The printed index maps, decided over the 64 points: every two-dimensional window is at block row t, block column 0;
    every per-neuron window at block 0. -/
theorem index_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ win0_4.index t (0 : Fin 1) = 0 ∧ win0_5.index t (0 : Fin 1) = 0 ∧ win0_6.index t (0 : Fin 1) = 0
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) :=
  (by decide +kernel : ∀ t : Fin grid0.N, _)

theorem point_lt (t : Fin cfg0.N) : t.val < 64 := t.isLt

/-- Entry (r, c) of the block at point t is entry (64·t + r, c) of the array. -/
def place (t : Fin cfg0.N) (j : S64x4096.Idx) : S4096x4096.Idx :=
  ix2 (⟨t.val * 64 + (j 0).val, by have := point_lt t; have := idx2_lt0 j; omega⟩ : Fin 4096) (j 1)

theorem place_col (t : Fin cfg0.N) (j : S64x4096.Idx) : ix1 ((place t j) 1) = ix1 (j 1) := rfl

theorem emb0 (t : Fin cfg0.N) (j : S64x4096.Idx) : ((cfg0.win 0).blk t).view.emb j = place t j := by
  obtain ⟨⟨e0, e1⟩, -⟩ := index_facts t
  funext a; apply Fin.ext
  match a with
  | ⟨0, _⟩ => show win0_0.index t (0 : Fin 2) * 64 + 1 * (j 0).val = t.val * 64 + (j 0).val; omega
  | ⟨1, _⟩ => show win0_0.index t (1 : Fin 2) * 4096 + 1 * (j 1).val = (j 1).val; omega

theorem emb1 (t : Fin cfg0.N) (j : S64x4096.Idx) : ((cfg0.win 1).blk t).view.emb j = place t j := by
  obtain ⟨-, ⟨e0, e1⟩, -⟩ := index_facts t
  funext a; apply Fin.ext
  match a with
  | ⟨0, _⟩ => show win0_1.index t (0 : Fin 2) * 64 + 1 * (j 0).val = t.val * 64 + (j 0).val; omega
  | ⟨1, _⟩ => show win0_1.index t (1 : Fin 2) * 4096 + 1 * (j 1).val = (j 1).val; omega

theorem emb2 (t : Fin cfg0.N) (j : S64x4096.Idx) : ((cfg0.win 2).blk t).view.emb j = place t j := by
  obtain ⟨-, -, ⟨e0, e1⟩, -⟩ := index_facts t
  funext a; apply Fin.ext
  match a with
  | ⟨0, _⟩ => show win0_2.index t (0 : Fin 2) * 64 + 1 * (j 0).val = t.val * 64 + (j 0).val; omega
  | ⟨1, _⟩ => show win0_2.index t (1 : Fin 2) * 4096 + 1 * (j 1).val = (j 1).val; omega

theorem emb3 (t : Fin cfg0.N) (j : S64x4096.Idx) : ((cfg0.win 3).blk t).view.emb j = place t j := by
  obtain ⟨-, -, -, ⟨e0, e1⟩, -⟩ := index_facts t
  funext a; apply Fin.ext
  match a with
  | ⟨0, _⟩ => show win0_3.index t (0 : Fin 2) * 64 + 1 * (j 0).val = t.val * 64 + (j 0).val; omega
  | ⟨1, _⟩ => show win0_3.index t (1 : Fin 2) * 4096 + 1 * (j 1).val = (j 1).val; omega

/-- A per-neuron window's one block is its whole vector. -/
theorem emb4 (t : Fin cfg0.N) (k : S4096.Idx) : ((cfg0.win 4).blk t).view.emb k = k := by
  obtain ⟨-, -, -, -, e, -⟩ := index_facts t
  funext a; apply Fin.ext
  match a with
  | ⟨0, _⟩ => show win0_4.index t (0 : Fin 1) * 4096 + 1 * (k 0).val = (k 0).val; omega

theorem emb5 (t : Fin cfg0.N) (k : S4096.Idx) : ((cfg0.win 5).blk t).view.emb k = k := by
  obtain ⟨-, -, -, -, -, e, -⟩ := index_facts t
  funext a; apply Fin.ext
  match a with
  | ⟨0, _⟩ => show win0_5.index t (0 : Fin 1) * 4096 + 1 * (k 0).val = (k 0).val; omega

theorem emb6 (t : Fin cfg0.N) (k : S4096.Idx) : ((cfg0.win 6).blk t).view.emb k = k := by
  obtain ⟨-, -, -, -, -, -, e, -⟩ := index_facts t
  funext a; apply Fin.ext
  match a with
  | ⟨0, _⟩ => show win0_6.index t (0 : Fin 1) * 4096 + 1 * (k 0).val = (k 0).val; omega

theorem emb7 (t : Fin cfg0.N) (j : S64x4096.Idx) : ((cfg0.win 7).blk t).view.emb j = place t j := by
  obtain ⟨-, -, -, -, -, -, -, ⟨e0, e1⟩, -⟩ := index_facts t
  funext a; apply Fin.ext
  match a with
  | ⟨0, _⟩ => show win0_7.index t (0 : Fin 2) * 64 + 1 * (j 0).val = t.val * 64 + (j 0).val; omega
  | ⟨1, _⟩ => show win0_7.index t (1 : Fin 2) * 4096 + 1 * (j 1).val = (j 1).val; omega

theorem emb8 (t : Fin cfg0.N) (j : S64x4096.Idx) : ((cfg0.win 8).blk t).view.emb j = place t j := by
  obtain ⟨-, -, -, -, -, -, -, -, ⟨e0, e1⟩, -⟩ := index_facts t
  funext a; apply Fin.ext
  match a with
  | ⟨0, _⟩ => show win0_8.index t (0 : Fin 2) * 64 + 1 * (j 0).val = t.val * 64 + (j 0).val; omega
  | ⟨1, _⟩ => show win0_8.index t (1 : Fin 2) * 4096 + 1 * (j 1).val = (j 1).val; omega

theorem emb9 (t : Fin cfg0.N) (j : S64x4096.Idx) : ((cfg0.win 9).blk t).view.emb j = place t j := by
  obtain ⟨-, -, -, -, -, -, -, -, -, ⟨e0, e1⟩, -⟩ := index_facts t
  funext a; apply Fin.ext
  match a with
  | ⟨0, _⟩ => show win0_9.index t (0 : Fin 2) * 64 + 1 * (j 0).val = t.val * 64 + (j 0).val; omega
  | ⟨1, _⟩ => show win0_9.index t (1 : Fin 2) * 4096 + 1 * (j 1).val = (j 1).val; omega

theorem emb10 (t : Fin cfg0.N) (j : S64x4096.Idx) : ((cfg0.win 10).blk t).view.emb j = place t j := by
  obtain ⟨-, -, -, -, -, -, -, -, -, -, e0, e1⟩ := index_facts t
  funext a; apply Fin.ext
  match a with
  | ⟨0, _⟩ => show win0_10.index t (0 : Fin 2) * 64 + 1 * (j 0).val = t.val * 64 + (j 0).val; omega
  | ⟨1, _⟩ => show win0_10.index t (1 : Fin 2) * 4096 + 1 * (j 1).val = (j 1).val; omega

/-! ## The staged blocks, entry by entry -/

theorem xEntry (c : Dev nD) (t : Fin cfg0.N) (j : S64x4096.Idx) : iblk m c 0 t j = V m c main_arg0 (place t j) := by
  show V m c main_arg0 (((cfg0.win 0).blk t).view.emb j) = _
  rw [emb0]
theorem uEntry (c : Dev nD) (t : Fin cfg0.N) (j : S64x4096.Idx) : iblk m c 1 t j = V m c main_arg1 (place t j) := by
  show V m c main_arg1 (((cfg0.win 1).blk t).view.emb j) = _
  rw [emb1]
theorem vEntry (c : Dev nD) (t : Fin cfg0.N) (j : S64x4096.Idx) : iblk m c 2 t j = V m c main_arg2 (place t j) := by
  show V m c main_arg2 (((cfg0.win 2).blk t).view.emb j) = _
  rw [emb2]
theorem qEntry (c : Dev nD) (t : Fin cfg0.N) (j : S64x4096.Idx) : iblk m c 3 t j = V m c main_arg3 (place t j) := by
  show V m c main_arg3 (((cfg0.win 3).blk t).view.emb j) = _
  rw [emb3]
theorem ωEntry (c : Dev nD) (t : Fin cfg0.N) (k : S4096.Idx) : iblk m c 4 t k = V m c main_arg4 k := by
  show V m c main_arg4 (((cfg0.win 4).blk t).view.emb k) = _
  rw [emb4]
theorem b0Entry (c : Dev nD) (t : Fin cfg0.N) (k : S4096.Idx) : iblk m c 5 t k = V m c main_arg5 k := by
  show V m c main_arg5 (((cfg0.win 5).blk t).view.emb k) = _
  rw [emb5]
theorem θEntry (c : Dev nD) (t : Fin cfg0.N) (k : S4096.Idx) : iblk m c 6 t k = V m c main_arg6 k := by
  show V m c main_arg6 (((cfg0.win 6).blk t).view.emb k) = _
  rw [emb6]

/-! ## What each point writes back is its block of the whole-array step -/

theorem uFlushed (c : Dev nD) (t : Fin cfg0.N) :
    (dats m 0 c).flushed 8 t = ((cfg0.win 8).blk t).view.read (Elt Ideal)
      (uNextAll (V m c main_arg0) (V m c main_arg1) (V m c main_arg2) (V m c main_arg3) (V m c main_arg4) (V m c main_arg5)) := by
  rw [ValueP.flushed8]
  funext j
  show out0_8 (iblk m c 0 t) (iblk m c 1 t) (iblk m c 2 t) (iblk m c 3 t) (iblk m c 4 t) (iblk m c 5 t) (iblk m c 6 t) j
    = uNextAll (V m c main_arg0) (V m c main_arg1) (V m c main_arg2) (V m c main_arg3) (V m c main_arg4) (V m c main_arg5)
        (((cfg0.win 8).blk t).view.emb j)
  refine (uBlock (iblk m c 0 t) (iblk m c 1 t) (iblk m c 2 t) (iblk m c 3 t) (iblk m c 4 t) (iblk m c 5 t) (iblk m c 6 t) j).trans ?_
  rw [emb8, xEntry, uEntry, vEntry, qEntry, ωEntry, b0Entry]
  rfl

theorem zFlushed (c : Dev nD) (t : Fin cfg0.N) :
    (dats m 0 c).flushed 7 t = ((cfg0.win 7).blk t).view.read (Elt Ideal)
      (spikeAll (V m c main_arg0) (V m c main_arg1) (V m c main_arg2) (V m c main_arg3) (V m c main_arg4) (V m c main_arg5) (V m c main_arg6)) := by
  rw [ValueP.flushed7]
  funext j
  show out0_7 (iblk m c 0 t) (iblk m c 1 t) (iblk m c 2 t) (iblk m c 3 t) (iblk m c 4 t) (iblk m c 5 t) (iblk m c 6 t) j
    = spikeAll (V m c main_arg0) (V m c main_arg1) (V m c main_arg2) (V m c main_arg3) (V m c main_arg4) (V m c main_arg5) (V m c main_arg6)
        (((cfg0.win 7).blk t).view.emb j)
  refine (zBlock (iblk m c 0 t) (iblk m c 1 t) (iblk m c 2 t) (iblk m c 3 t) (iblk m c 4 t) (iblk m c 5 t) (iblk m c 6 t) j).trans ?_
  rw [emb7, xEntry, uEntry, vEntry, qEntry, ωEntry, b0Entry, θEntry]
  rfl

theorem vFlushed (c : Dev nD) (t : Fin cfg0.N) :
    (dats m 0 c).flushed 9 t = ((cfg0.win 9).blk t).view.read (Elt Ideal)
      (vNextAll (V m c main_arg1) (V m c main_arg2) (V m c main_arg3) (V m c main_arg4) (V m c main_arg5)) := by
  rw [ValueP.flushed9]
  funext j
  show out0_9 (iblk m c 0 t) (iblk m c 1 t) (iblk m c 2 t) (iblk m c 3 t) (iblk m c 4 t) (iblk m c 5 t) (iblk m c 6 t) j
    = vNextAll (V m c main_arg1) (V m c main_arg2) (V m c main_arg3) (V m c main_arg4) (V m c main_arg5)
        (((cfg0.win 9).blk t).view.emb j)
  refine (vBlock (iblk m c 0 t) (iblk m c 1 t) (iblk m c 2 t) (iblk m c 3 t) (iblk m c 4 t) (iblk m c 5 t) (iblk m c 6 t) j).trans ?_
  rw [emb9, uEntry, vEntry, qEntry, ωEntry, b0Entry]
  rfl

theorem qFlushed (c : Dev nD) (t : Fin cfg0.N) :
    (dats m 0 c).flushed 10 t = ((cfg0.win 10).blk t).view.read (Elt Ideal)
      (qNextAll (V m c main_arg0) (V m c main_arg1) (V m c main_arg2) (V m c main_arg3) (V m c main_arg4) (V m c main_arg5) (V m c main_arg6)) := by
  rw [ValueP.flushed10]
  funext j
  show out0_10 (iblk m c 0 t) (iblk m c 1 t) (iblk m c 2 t) (iblk m c 3 t) (iblk m c 4 t) (iblk m c 5 t) (iblk m c 6 t) j
    = qNextAll (V m c main_arg0) (V m c main_arg1) (V m c main_arg2) (V m c main_arg3) (V m c main_arg4) (V m c main_arg5) (V m c main_arg6)
        (((cfg0.win 10).blk t).view.emb j)
  refine (qBlock (iblk m c 0 t) (iblk m c 1 t) (iblk m c 2 t) (iblk m c 3 t) (iblk m c 4 t) (iblk m c 5 t) (iblk m c 6 t) j).trans ?_
  rw [emb10, xEntry, uEntry, vEntry, qEntry, ωEntry, b0Entry, θEntry]
  rfl

/-! ## The 64 blocks tile each result array -/

/-- Row r of a result lies in the block of point r / 64. -/
def pointOf (i : S4096x4096.Idx) : Fin cfg0.N := ⟨(i 0).val / 64, by have := idx2_lt0 i; show (i 0).val / 64 < 64; omega⟩

theorem zMem (t : Fin cfg0.N) (i : S4096x4096.Idx) :
    i ∈ ((cfg0.win 7).blk t).view.set ↔ ∀ a : Fin 2, win0_7.index t a * S64x4096.size a ≤ (i a).val ∧ (i a).val < win0_7.index t a * S64x4096.size a + S64x4096.size a := by
  show i ∈ ((View.whole main_v0_0).slice (win0_7.rect t)).set ↔ _
  rw [View.set_slice_whole, Rect.mem_set_unit]
  exact Iff.rfl

theorem zCover (i : S4096x4096.Idx) : ∃ t : Fin cfg0.N, (cfg0.win 7).flush t = true ∧ i ∈ ((cfg0.win 7).blk t).view.set := by
  have hi0 := idx2_lt0 i
  have hi1 := idx2_lt1 i
  refine ⟨pointOf i, flush0_7 _, ?_⟩
  obtain ⟨-, -, -, -, -, -, -, ⟨e0, e1⟩, -⟩ := index_facts (pointOf i)
  have ep : (pointOf i).val = (i 0).val / 64 := rfl
  rw [zMem]
  intro a
  match a with
  | ⟨0, _⟩ => show win0_7.index (pointOf i) (0 : Fin 2) * 64 ≤ (i 0).val ∧ (i 0).val < win0_7.index (pointOf i) (0 : Fin 2) * 64 + 64; omega
  | ⟨1, _⟩ => show win0_7.index (pointOf i) (1 : Fin 2) * 4096 ≤ (i 1).val ∧ (i 1).val < win0_7.index (pointOf i) (1 : Fin 2) * 4096 + 4096; omega

theorem uMem (t : Fin cfg0.N) (i : S4096x4096.Idx) :
    i ∈ ((cfg0.win 8).blk t).view.set ↔ ∀ a : Fin 2, win0_8.index t a * S64x4096.size a ≤ (i a).val ∧ (i a).val < win0_8.index t a * S64x4096.size a + S64x4096.size a := by
  show i ∈ ((View.whole main_v0_1).slice (win0_8.rect t)).set ↔ _
  rw [View.set_slice_whole, Rect.mem_set_unit]
  exact Iff.rfl

theorem uCover (i : S4096x4096.Idx) : ∃ t : Fin cfg0.N, (cfg0.win 8).flush t = true ∧ i ∈ ((cfg0.win 8).blk t).view.set := by
  have hi0 := idx2_lt0 i
  have hi1 := idx2_lt1 i
  refine ⟨pointOf i, flush0_8 _, ?_⟩
  obtain ⟨-, -, -, -, -, -, -, -, ⟨e0, e1⟩, -⟩ := index_facts (pointOf i)
  have ep : (pointOf i).val = (i 0).val / 64 := rfl
  rw [uMem]
  intro a
  match a with
  | ⟨0, _⟩ => show win0_8.index (pointOf i) (0 : Fin 2) * 64 ≤ (i 0).val ∧ (i 0).val < win0_8.index (pointOf i) (0 : Fin 2) * 64 + 64; omega
  | ⟨1, _⟩ => show win0_8.index (pointOf i) (1 : Fin 2) * 4096 ≤ (i 1).val ∧ (i 1).val < win0_8.index (pointOf i) (1 : Fin 2) * 4096 + 4096; omega

theorem vMem (t : Fin cfg0.N) (i : S4096x4096.Idx) :
    i ∈ ((cfg0.win 9).blk t).view.set ↔ ∀ a : Fin 2, win0_9.index t a * S64x4096.size a ≤ (i a).val ∧ (i a).val < win0_9.index t a * S64x4096.size a + S64x4096.size a := by
  show i ∈ ((View.whole main_v0_2).slice (win0_9.rect t)).set ↔ _
  rw [View.set_slice_whole, Rect.mem_set_unit]
  exact Iff.rfl

theorem vCover (i : S4096x4096.Idx) : ∃ t : Fin cfg0.N, (cfg0.win 9).flush t = true ∧ i ∈ ((cfg0.win 9).blk t).view.set := by
  have hi0 := idx2_lt0 i
  have hi1 := idx2_lt1 i
  refine ⟨pointOf i, flush0_9 _, ?_⟩
  obtain ⟨-, -, -, -, -, -, -, -, -, ⟨e0, e1⟩, -⟩ := index_facts (pointOf i)
  have ep : (pointOf i).val = (i 0).val / 64 := rfl
  rw [vMem]
  intro a
  match a with
  | ⟨0, _⟩ => show win0_9.index (pointOf i) (0 : Fin 2) * 64 ≤ (i 0).val ∧ (i 0).val < win0_9.index (pointOf i) (0 : Fin 2) * 64 + 64; omega
  | ⟨1, _⟩ => show win0_9.index (pointOf i) (1 : Fin 2) * 4096 ≤ (i 1).val ∧ (i 1).val < win0_9.index (pointOf i) (1 : Fin 2) * 4096 + 4096; omega

theorem qMem (t : Fin cfg0.N) (i : S4096x4096.Idx) :
    i ∈ ((cfg0.win 10).blk t).view.set ↔ ∀ a : Fin 2, win0_10.index t a * S64x4096.size a ≤ (i a).val ∧ (i a).val < win0_10.index t a * S64x4096.size a + S64x4096.size a := by
  show i ∈ ((View.whole main_v0_3).slice (win0_10.rect t)).set ↔ _
  rw [View.set_slice_whole, Rect.mem_set_unit]
  exact Iff.rfl

theorem qCover (i : S4096x4096.Idx) : ∃ t : Fin cfg0.N, (cfg0.win 10).flush t = true ∧ i ∈ ((cfg0.win 10).blk t).view.set := by
  have hi0 := idx2_lt0 i
  have hi1 := idx2_lt1 i
  refine ⟨pointOf i, flush0_10 _, ?_⟩
  obtain ⟨-, -, -, -, -, -, -, -, -, -, e0, e1⟩ := index_facts (pointOf i)
  have ep : (pointOf i).val = (i 0).val / 64 := rfl
  rw [qMem]
  intro a
  match a with
  | ⟨0, _⟩ => show win0_10.index (pointOf i) (0 : Fin 2) * 64 ≤ (i 0).val ∧ (i 0).val < win0_10.index (pointOf i) (0 : Fin 2) * 64 + 64; omega
  | ⟨1, _⟩ => show win0_10.index (pointOf i) (1 : Fin 2) * 4096 ≤ (i 1).val ∧ (i 1).val < win0_10.index (pointOf i) (1 : Fin 2) * 4096 + 4096; omega

/-! ## The result arrays after the run -/

theorem zFinal (c : Dev nD) : (dats m 0 c).arrAt 7 cfg0.N
    = spikeAll (V m c main_arg0) (V m c main_arg1) (V m c main_arg2) (V m c main_arg3) (V m c main_arg4) (V m c main_arg5) (V m c main_arg6) :=
  (dats m 0 c).arrAt_eq_of_cover 7 _ (fun t _ => zFlushed m c t) zCover

theorem uFinal (c : Dev nD) : (dats m 0 c).arrAt 8 cfg0.N
    = uNextAll (V m c main_arg0) (V m c main_arg1) (V m c main_arg2) (V m c main_arg3) (V m c main_arg4) (V m c main_arg5) :=
  (dats m 0 c).arrAt_eq_of_cover 8 _ (fun t _ => uFlushed m c t) uCover

theorem vFinal (c : Dev nD) : (dats m 0 c).arrAt 9 cfg0.N
    = vNextAll (V m c main_arg1) (V m c main_arg2) (V m c main_arg3) (V m c main_arg4) (V m c main_arg5) :=
  (dats m 0 c).arrAt_eq_of_cover 9 _ (fun t _ => vFlushed m c t) vCover

theorem qFinal (c : Dev nD) : (dats m 0 c).arrAt 10 cfg0.N
    = qNextAll (V m c main_arg0) (V m c main_arg1) (V m c main_arg2) (V m c main_arg3) (V m c main_arg4) (V m c main_arg5) (V m c main_arg6) :=
  (dats m 0 c).arrAt_eq_of_cover 10 _ (fun t _ => qFlushed m c t) qCover

/-- Every weakly fair execution of the idealized kernel ends with z, u', v', q' at the whole-array step of the
    arguments, the arguments unchanged. -/
theorem run : θ_run defs (onTc (τ := τ) (main (F := Ideal))) ⟨m, fun _ => 0, ρ⟩ fun r => ∀ c : Dev nD,
      r.2.mem ((c : Thread nD τ).loc main_v0_0) = spikeAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v0_1) = uNextAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = vNextAll (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = qNextAll (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (zFinal m c), (h c).2.1.trans (uFinal m c), (h c).2.2.1.trans (vFinal m c),
      (h c).2.2.2.1.trans (qFinal m c), (h c).2.2.2.2⟩)
    (ValueP.run_blocks m ρ)

end Cert.KernelIdeal.Step

end
-- ==== Proof.RefStep.lean ====
/-
  The reference program, read one element at a time.

  Each of its four results, at an array index (r, c), is the per-neuron step of Proof/Spec.lean applied to the entries of
  x, u, v, q at (r, c) and to entry c of the three per-neuron vectors: the program computes p(ω), b and the two membrane
  updates whole-array by whole-array in the order Spec.lean writes, the per-neuron vectors spread along the rows.
-/
import proofs.«164706_j14121852470206_1_alg».proof.Proof.Spec
import proofs.«164706_j14121852470206_1_alg».proof.Proof.Gen.ReferenceIdeal.Read
import Idealize.ShloMosaic.Lib.ValueIdx

noncomputable section

namespace Cert.ReferenceIdeal.Step

open Cert.ReferenceIdeal Cert.ReferenceIdeal.Read Idealize.ShloMosaic Idealize.ShloMosaic.TcCoe Idealize.ShloMosaic.ValueIdx Cert.Resonator

/-- Spreading a per-neuron vector over the array reads it at the column. -/
theorem col13 (i : S4096x4096.Idx) : idx_main_v13 (idx_main_v14 i) = ix1 (i 1) := funext fun a => match a with | ⟨0, _⟩ => rfl
theorem col20 (i : S4096x4096.Idx) : idx_main_v20 (idx_main_v21 i) = ix1 (i 1) := funext fun a => match a with | ⟨0, _⟩ => rfl
theorem col29 (i : S4096x4096.Idx) : idx_main_v29 (idx_main_v30 i) = ix1 (i 1) := funext fun a => match a with | ⟨0, _⟩ => rfl
theorem col41 (i : S4096x4096.Idx) : idx_main_v41 (idx_main_v42 i) = ix1 (i 1) := funext fun a => match a with | ⟨0, _⟩ => rfl

/-- p(ω), per neuron. -/
theorem sustain_stage (ω : PerNeuron) (j : S4096.Idx) : val_main_v10 (F := Ideal) ω j = sustain (ω j) := by
  simp only [val_main_v10_apply, val_main_v9_apply, val_main_cst_2_apply, val_main_v8_apply, val_main_v7_apply, val_main_cst_1_apply, val_main_v6_apply, val_main_v5_apply, val_main_v4_apply, val_main_cst_0_apply, val_main_v3_apply, val_main_v2_apply, val_main_v1_apply, val_main_cst_apply, val_main_v0_apply]
  rfl

/-- The damping b at (r, c). -/
theorem damping_stage (q : Grid) (ω b0 : PerNeuron) (i : S4096x4096.Idx) :
    val_main_v15 (F := Ideal) q ω b0 i = damping (ω (ix1 (i 1))) (b0 (ix1 (i 1))) (q i) := by
  simp only [val_main_v15_apply, val_main_v14_apply, val_main_v13_apply, val_main_v12_apply, val_main_v11_apply, col13, sustain_stage]
  rfl

/-- u' at (r, c). -/
theorem uNext_stage (x u v q : Grid) (ω b0 : PerNeuron) (i : S4096x4096.Idx) :
    val_main_v28 (F := Ideal) x u v q ω b0 i
      = uNext (x i) (u i) (v i) (q i) (ω (ix1 (i 1))) (b0 (ix1 (i 1))) := by
  simp only [val_main_v28_apply, val_main_v27_apply, val_main_v26_apply, val_main_cst_5_apply, val_main_v25_apply, val_main_v24_apply, val_main_v23_apply, val_main_cst_4_apply, val_main_v22_apply, val_main_v21_apply, val_main_v20_apply, val_main_v19_apply, val_main_v18_apply, val_main_v17_apply, val_main_cst_3_apply, val_main_v16_apply, val_main_v0_apply, col20, damping_stage]
  rfl

/-- v' at (r, c). -/
theorem vNext_stage (u v q : Grid) (ω b0 : PerNeuron) (i : S4096x4096.Idx) :
    val_main_v38 (F := Ideal) u v q ω b0 i
      = vNext (u i) (v i) (q i) (ω (ix1 (i 1))) (b0 (ix1 (i 1))) := by
  simp only [val_main_v38_apply, val_main_v37_apply, val_main_v36_apply, val_main_cst_7_apply, val_main_v35_apply, val_main_v34_apply, val_main_v33_apply, val_main_v32_apply, val_main_cst_6_apply, val_main_v31_apply, val_main_v30_apply, val_main_v29_apply, val_main_v0_apply, col29, damping_stage]
  rfl

/-- z at (r, c). -/
theorem spike_stage (x u v q : Grid) (ω b0 θ : PerNeuron) (i : S4096x4096.Idx) :
    val_main_v47 (F := Ideal) x u v q ω b0 θ i
      = spike (x i) (u i) (v i) (q i) (ω (ix1 (i 1))) (b0 (ix1 (i 1))) (θ (ix1 (i 1))) := by
  simp only [val_main_v47_apply, val_main_v46_apply, val_main_v45_apply, val_main_cst_8_apply, val_main_v44_apply, val_main_v43_apply, val_main_v42_apply, val_main_v41_apply, val_main_v40_apply, val_main_v39_apply, col41, uNext_stage]
  rfl

/-- q' at (r, c). -/
theorem qNext_stage (x u v q : Grid) (ω b0 θ : PerNeuron) (i : S4096x4096.Idx) :
    val_main_v50 (F := Ideal) x u v q ω b0 θ i
      = qNext (x i) (u i) (v i) (q i) (ω (ix1 (i 1))) (b0 (ix1 (i 1))) (θ (ix1 (i 1))) := by
  simp only [val_main_v50_apply, val_main_v49_apply, val_main_v48_apply, val_main_cst_9_apply, spike_stage]
  rfl

/-! ## The four results, whole -/

theorem spike_all (x u v q : Grid) (ω b0 θ : PerNeuron) :
    val_main_v47 (F := Ideal) x u v q ω b0 θ = spikeAll x u v q ω b0 θ := funext fun i => spike_stage x u v q ω b0 θ i

theorem uNext_all (x u v q : Grid) (ω b0 : PerNeuron) :
    val_main_v28 (F := Ideal) x u v q ω b0 = uNextAll x u v q ω b0 := funext fun i => uNext_stage x u v q ω b0 i

theorem vNext_all (u v q : Grid) (ω b0 : PerNeuron) :
    val_main_v38 (F := Ideal) u v q ω b0 = vNextAll u v q ω b0 := funext fun i => vNext_stage u v q ω b0 i

theorem qNext_all (x u v q : Grid) (ω b0 θ : PerNeuron) :
    val_main_v50 (F := Ideal) x u v q ω b0 θ = qNextAll x u v q ω b0 θ := funext fun i => qNext_stage x u v q ω b0 θ i

end Cert.ReferenceIdeal.Step

end
-- ==== Proof.lean ====
/-
  The certificate: the tiled kernel and the whole-array reference compute one and the same resonate-and-fire step.

  Per neuron the step is the handful of formulas of Proof/Spec.lean.  The kernel applies them to 64 rows at a time,
  all 4096 neurons of each row, with the three per-neuron vectors spread down the rows (Proof/Block.lean), and the 64
  blocks tile each of the four results (Proof/KernelStep.lean); the reference applies the same formulas, in the same
  order of operations, to the whole arrays at once (Proof/RefStep.lean).  So both end with the same four arrays, entry
  by entry, on every input — no law of the extended reals beyond the formulas as written is used, and the finiteness
  of the inputs is not needed.  The one place the two programs spell a value differently is the firing indicator: the
  kernel widens the comparison bit to 32 bits and converts it as a signed integer, the reference converts the bit as
  an unsigned one; both are the number 0 or 1.

  The three frames are the generated frame runs; the idealization rewrote nothing, so `preserves` is trivial.
-/
import proofs.«164706_j14121852470206_1_alg».proof.Defs
import proofs.«164706_j14121852470206_1_alg».proof.Proof.KernelStep
import proofs.«164706_j14121852470206_1_alg».proof.Proof.RefStep
import proofs.«164706_j14121852470206_1_alg».proof.Proof.Gen.Kernel
import proofs.«164706_j14121852470206_1_alg».proof.Proof.Gen.Kernel.Frame
import proofs.«164706_j14121852470206_1_alg».proof.Proof.Gen.KernelIdeal
import proofs.«164706_j14121852470206_1_alg».proof.Proof.Gen.KernelIdeal.Frame
import proofs.«164706_j14121852470206_1_alg».proof.Proof.Gen.ReferenceIdeal
import proofs.«164706_j14121852470206_1_alg».proof.Proof.Gen.Pre_finite_inputs
import proofs.«164706_j14121852470206_1_alg».proof.Proof.Gen.ReferenceIdeal.Run
import proofs.«164706_j14121852470206_1_alg».proof.Proof.Gen.ReferenceIdeal.Read
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the four results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- Both programs end with z, u', v', q' at the whole-array step of the (agreeing) arguments. -/
theorem algebraic : Cert.algebraic_KernelIdeal_ReferenceIdeal := by
  intro m ρ m' ρ' _ hagree
  refine ⟨_, _, _, _, Cert.KernelIdeal.Step.run m ρ, ?_⟩
  refine (θ_run Cert.ReferenceIdeal.defs _ _).mono
    (fun _ h c => ⟨(h c).1.trans ?_, (h c).2.1.trans ?_, (h c).2.2.1.trans ?_, (h c).2.2.2.1.trans ?_, (h c).2.2.2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1,
      (hagree c).2.2.2.2.2.2]
    exact (Cert.ReferenceIdeal.Read.val_main_v47_eq _ _ _ _ _ _ _).trans (Cert.ReferenceIdeal.Step.spike_all _ _ _ _ _ _ _)
  · rw [(hagree c).1, (hagree c).2.1, (hagree c).2.2.1, (hagree c).2.2.2.1, (hagree c).2.2.2.2.1, (hagree c).2.2.2.2.2.1]
    exact (Cert.ReferenceIdeal.Read.val_main_v28_eq _ _ _ _ _ _).trans (Cert.ReferenceIdeal.Step.uNext_all _ _ _ _ _ _)
  · rw [(hagree c).2.1, (hagree c).2.2.1, (hagree c).2.2.2.1, (hagree c).2.2.2.2.1, (hagree c).2.2.2.2.2.1]
    exact (Cert.ReferenceIdeal.Read.val_main_v38_eq _ _ _ _ _).trans (Cert.ReferenceIdeal.Step.vNext_all _ _ _ _ _)
  · rw [(hagree c).1, (hagree c).2.1, (hagree c).2.2.1, (hagree c).2.2.2.1, (hagree c).2.2.2.2.1, (hagree c).2.2.2.2.2.1,
      (hagree c).2.2.2.2.2.2]
    exact (Cert.ReferenceIdeal.Read.val_main_v50_eq _ _ _ _ _ _ _).trans (Cert.ReferenceIdeal.Step.qNext_all _ _ _ _ _ _ _)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
